-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x48 : Shape := ⟨2, ![2097152, 48]⟩
abbrev S32x64 : Shape := ⟨2, ![32, 64]⟩
abbrev S64x64 : Shape := ⟨2, ![64, 64]⟩
abbrev S64x16 : Shape := ⟨2, ![64, 16]⟩
abbrev S31x64 : Shape := ⟨2, ![31, 64]⟩
abbrev S64x3 : Shape := ⟨2, ![64, 3]⟩
abbrev S_ : Shape := ⟨0, ![]⟩

class Facts : Prop where
  bcast_S_S2097152x48 : S_.BroadcastsInDim S2097152x48 (![] : Fin 0 → Fin S2097152x48.rank)
  reducesTo_S2097152x48_S_d0_1 : S2097152x48.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S31x64 : S_.BroadcastsInDim S31x64 (![] : Fin 0 → Fin S31x64.rank)
  reducesTo_S31x64_S_d0_1 : S31x64.ReducesTo [0, 1] S_
  bcast_S_S64x3 : S_.BroadcastsInDim S64x3 (![] : Fin 0 → Fin S64x3.rank)
  reducesTo_S64x3_S_d0_1 : S64x3.ReducesTo [0, 1] S_

variable [Facts]

def fn_part2 {F : FTy → Type} [FloatOps F] (main_arg7 : FVec F S64x3 .f32) (main_v33 : IVec S_ 1) : IVec S_ 1 :=
  let main_v34 : FVec F S64x3 .f32 := Host.absf main_arg7
  let main_cst_12 : FVec F S_ .f32 := constant S_ .f32 0x7F800000#32
  let main_v35 : FVec F S64x3 .f32 := broadcastInDim S64x3 ![] bcast_S_S64x3 main_cst_12
  let main_v36 : IVec S64x3 1 := cmpf .olt main_v34 main_v35
  let main_c_13 : IVec S_ 1 := constantI S_ 1 1#1
  let main_v37 : IVec S_ 1 := (fun x v => Host.reduce IntOp.andi x v reducesTo_S64x3_S_d0_1 h_S_) main_v36 main_c_13
  let main_v38 : IVec S_ 1 := andi main_v33 main_v37
  main_v38

def fn_part1 {F : FTy → Type} [FloatOps F] (main_arg4 : FVec F S31x64 .f32) (main_arg5 : FVec F S64x64 .f32) (main_arg6 : FVec F S64x64 .f32) (main_arg7 : FVec F S64x3 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S31x64 .f32 := Host.absf main_arg4
  let main_cst_6 : FVec F S_ .f32 := constant S_ .f32 0x7F800000#32
  let main_v20 : FVec F S31x64 .f32 := broadcastInDim S31x64 ![] bcast_S_S31x64 main_cst_6
  let main_v21 : IVec S31x64 1 := cmpf .olt main_v19 main_v20
  let main_c_7 : IVec S_ 1 := constantI S_ 1 1#1
  let main_v22 : IVec S_ 1 := (fun x v => Host.reduce IntOp.andi x v reducesTo_S31x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S2097152x48 .f32) (main_arg1 : FVec F S32x64 .f32) (main_arg2 : FVec F S64x64 .f32) (main_arg3 : FVec F S64x16 .f32) (main_arg4 : FVec F S31x64 .f32) (main_arg5 : FVec F S64x64 .f32) (main_arg6 : FVec F S64x64 .f32) (main_arg7 : FVec F S64x3 .f32) : IVec S_ 1 :=
  let main_v0 : FVec F S2097152x48 .f32 := Host.absf main_arg0
  let main_cst : FVec F S_ .f32 := constant S_ .f32 0x7F800000#32
  let main_v1 : FVec F S2097152x48 .f32 := broadcastInDim S2097152x48 ![] bcast_S_S2097152x48 main_cst
  let main_v2 : IVec S2097152x48 1 := cmpf .olt main_v0 main_v1
  let main_c : IVec S_ 1 := constantI S_ 1 1#1
  let main_v3 : IVec S_ 1 := (fun x v => Host.reduce IntOp.andi x v reducesTo_S2097152x48_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_arg6 main_arg7 main_v13 main_v16
-- ==== Kernel.lean ====
abbrev S2097152x48 : Shape := ⟨2, ![2097152, 48]⟩
abbrev S32x64 : Shape := ⟨2, ![32, 64]⟩
abbrev S64x64 : Shape := ⟨2, ![64, 64]⟩
abbrev S64x16 : Shape := ⟨2, ![64, 16]⟩
abbrev S31x64 : Shape := ⟨2, ![31, 64]⟩
abbrev S64x3 : Shape := ⟨2, ![64, 3]⟩
abbrev S2097152x4 : Shape := ⟨2, ![2097152, 4]⟩
abbrev S8192x48 : Shape := ⟨2, ![8192, 48]⟩
abbrev S8192x4 : Shape := ⟨2, ![8192, 4]⟩
abbrev S8192x32 : Shape := ⟨2, ![8192, 32]⟩
abbrev S8192x16 : Shape := ⟨2, ![8192, 16]⟩
abbrev S8192x64 : Shape := ⟨2, ![8192, 64]⟩
abbrev S8192x1 : Shape := ⟨2, ![8192, 1]⟩
abbrev S8192x15 : Shape := ⟨2, ![8192, 15]⟩
abbrev S8192x31 : Shape := ⟨2, ![8192, 31]⟩
abbrev S8192x3 : Shape := ⟨2, ![8192, 3]⟩

abbrev nBuf : Space → Nat
  | .hbm => 9
  | .vmem => 11
  | .smem => 0
  | _ => 0

abbrev bufTy : (tb : Table) → Fin (tcTables nBuf tb) → BufTy
  | .hbm, ⟨0, _⟩ => ⟨S2097152x48, .f32⟩
  | .hbm, ⟨1, _⟩ => ⟨S32x64, .f32⟩
  | .hbm, ⟨2, _⟩ => ⟨S64x64, .f32⟩
  | .hbm, ⟨3, _⟩ => ⟨S64x16, .f32⟩
  | .hbm, ⟨4, _⟩ => ⟨S31x64, .f32⟩
  | .hbm, ⟨5, _⟩ => ⟨S64x64, .f32⟩
  | .hbm, ⟨6, _⟩ => ⟨S64x64, .f32⟩
  | .hbm, ⟨7, _⟩ => ⟨S64x3, .f32⟩
  | .hbm, ⟨8, _⟩ => ⟨S2097152x4, .f32⟩
  | .local _ .vmem, ⟨0, _⟩ => ⟨S8192x48, .f32⟩
  | .local _ .vmem, ⟨1, _⟩ => ⟨S8192x48, .f32⟩
  | .local _ .vmem, ⟨2, _⟩ => ⟨S32x64, .f32⟩
  | .local _ .vmem, ⟨3, _⟩ => ⟨S64x64, .f32⟩
  | .local _ .vmem, ⟨4, _⟩ => ⟨S64x16, .f32⟩
  | .local _ .vmem, ⟨5, _⟩ => ⟨S31x64, .f32⟩
  | .local _ .vmem, ⟨6, _⟩ => ⟨S64x64, .f32⟩
  | .local _ .vmem, ⟨7, _⟩ => ⟨S64x64, .f32⟩
  | .local _ .vmem, ⟨8, _⟩ => ⟨S64x3, .f32⟩
  | .local _ .vmem, ⟨9, _⟩ => ⟨S8192x4, .f32⟩
  | .local _ .vmem, ⟨10, _⟩ => ⟨S8192x4, .f32⟩
  | _, _ => ⟨S2097152x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S31x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8192x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S8192x48_S8192x48_0_0 : ∀ a, (![0, 0] : Fin 2 → Nat) a + S8192x48.size a ≤ S8192x48.size a
  h_S8192x48 : 0 < S8192x48.numel
  slices_S8192x48_o0_0_S8192x32 : S8192x48.Slices ![0, 0] S8192x32
  slices_S8192x48_o0_32_S8192x16 : S8192x48.Slices ![0, 32] S8192x16
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64x64_S64x64_0_0 : ∀ a, (![0, 0] : Fin 2 → Nat) a + S64x64.size a ≤ S64x64.size a
  h_S64x64 : 0 < S64x64.numel
  inb_S64x16_S64x16_0_0 : ∀ a, (![0, 0] : Fin 2 → Nat) a + S64x16.size a ≤ S64x16.size a
  h_S64x16 : 0 < S64x16.numel
  slices_S8192x16_o0_0_S8192x1 : S8192x16.Slices ![0, 0] S8192x1
  slices_S8192x16_o0_1_S8192x15 : S8192x16.Slices ![0, 1] S8192x15
  concatenates_S8192x16_S8192x15_S8192x31_d1 : Shape.Concatenates [S8192x16, S8192x15] S8192x31 1
  inb_S31x64_S31x64_0_0 : ∀ a, (![0, 0] : Fin 2 → Nat) a + S31x64.size a ≤ S31x64.size a
  h_S31x64 : 0 < S31x64.numel
  inb_S64x3_S64x3_0_0 : ∀ a, (![0, 0] : Fin 2 → Nat) a + S64x3.size a ≤ S64x3.size a
  h_S64x3 : 0 < S64x3.numel
  concatenates_S8192x3_S8192x1_S8192x4_d1 : Shape.Concatenates [S8192x3, S8192x1] S8192x4 1
  inb_S8192x4_S8192x4_0_0 : ∀ a, (![0, 0] : Fin 2 → Nat) a + S8192x4.size a ≤ S8192x4.size a
  h_S8192x4 : 0 < S8192x4.numel
  dot_S8192x32_S32x64_S8192x64_1_0_0_1_n_n_wf : DotDims.WF S8192x32 S32x64 S8192x64 [1] [0] [0] [1] [] []
  dot_S8192x64_S64x64_S8192x64_1_0_0_1_n_n_wf : DotDims.WF S8192x64 S64x64 S8192x64 [1] [0] [0] [1] [] []
  dot_S8192x64_S64x16_S8192x16_1_0_0_1_n_n_wf : DotDims.WF S8192x64 S64x16 S8192x16 [1] [0] [0] [1] [] []
  dot_S8192x31_S31x64_S8192x64_1_0_0_1_n_n_wf : DotDims.WF S8192x31 S31x64 S8192x64 [1] [0] [0] [1] [] []
  dot_S8192x64_S64x3_S8192x3_1_0_0_1_n_n_wf : DotDims.WF S8192x64 S64x3 S8192x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x48.size a ≤ S2097152x48.size a
  hwx0_0 : ∀ i : grid0.Coords, EltTy.bits .f32 = 32 ∨ (Rect.block (s := S2097152x48) S8192x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S31x64.size a ≤ S31x64.size a
  hwx0_4 : ∀ i : grid0.Coords, EltTy.bits .f32 = 32 ∨ (Rect.block (s := S31x64) S31x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x3.size a ≤ S64x3.size a
  hwx0_7 : ∀ i : grid0.Coords, EltTy.bits .f32 = 32 ∨ (Rect.block (s := S64x3) S64x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192x4.size a ≤ S2097152x4.size a
  hwx0_8 : ∀ i : grid0.Coords, EltTy.bits .f32 = 32 ∨ (Rect.block (s := S2097152x4) S8192x4.size (cc0_transform_8 i) (hinb0_8 i)).WholeWords (EltTy.packing .f32)

variable [Facts₀]

def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def dot_S8192x31_S31x64_S8192x64_1_0_0_1_n_n : DotDims S8192x31 S31x64 S8192x64 where
  lhsContracting := [1]
  rhsContracting := [0]
  lhsNonContracting := [0]
  rhsNonContracting := [1]
  lhsBatch := []
  rhsBatch := []
  wf := dot_S8192x31_S31x64_S8192x64_1_0_0_1_n_n_wf
def dot_S8192x64_S64x3_S8192x3_1_0_0_1_n_n : DotDims S8192x64 S64x3 S8192x3 where
  lhsContracting := [1]
  rhsContracting := [0]
  lhsNonContracting := [0]
  rhsNonContracting := [1]
  lhsBatch := []
  rhsBatch := []
  wf := dot_S8192x64_S64x3_S8192x3_1_0_0_1_n_n_wf

abbrev win0_0 : Pipeline.Window sig grid0 :=
  Pipeline.Window.ofSpec (Memref.whole main_arg0) S8192x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S31x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S8192x4.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2097152x48 : Shape := ⟨2, ![2097152, 48]⟩
abbrev S32x64 : Shape := ⟨2, ![32, 64]⟩
abbrev S64x64 : Shape := ⟨2, ![64, 64]⟩
abbrev S64x16 : Shape := ⟨2, ![64, 16]⟩
abbrev S31x64 : Shape := ⟨2, ![31, 64]⟩
abbrev S64x3 : Shape := ⟨2, ![64, 3]⟩
abbrev S2097152x32 : Shape := ⟨2, ![2097152, 32]⟩
abbrev S2097152x16 : Shape := ⟨2, ![2097152, 16]⟩
abbrev S2097152x64 : Shape := ⟨2, ![2097152, 64]⟩
abbrev S_ : Shape := ⟨0, ![]⟩
abbrev S2097152x1 : Shape := ⟨2, ![2097152, 1]⟩
abbrev S2097152 : Shape := ⟨1, ![2097152]⟩
abbrev S2097152x15 : Shape := ⟨2, ![2097152, 15]⟩
abbrev S2097152x31 : Shape := ⟨2, ![2097152, 31]⟩
abbrev S2097152x3 : Shape := ⟨2, ![2097152, 3]⟩
abbrev S2097152x4 : Shape := ⟨2, ![2097152, 4]⟩

abbrev nBuf : Space → Nat
  | .hbm => 38
  | .vmem => 0
  | .smem => 0
  | _ => 0

abbrev bufTy : (tb : Table) → Fin (tcTables nBuf tb) → BufTy
  | .hbm, ⟨0, _⟩ => ⟨S2097152x48, .f32⟩
  | .hbm, ⟨1, _⟩ => ⟨S32x64, .f32⟩
  | .hbm, ⟨2, _⟩ => ⟨S64x64, .f32⟩
  | .hbm, ⟨3, _⟩ => ⟨S64x16, .f32⟩
  | .hbm, ⟨4, _⟩ => ⟨S31x64, .f32⟩
  | .hbm, ⟨5, _⟩ => ⟨S64x64, .f32⟩
  | .hbm, ⟨6, _⟩ => ⟨S64x64, .f32⟩
  | .hbm, ⟨7, _⟩ => ⟨S64x3, .f32⟩
  | .hbm, ⟨8, _⟩ => ⟨S2097152x32, .f32⟩
  | .hbm, ⟨9, _⟩ => ⟨S2097152x16, .f32⟩
  | .hbm, ⟨10, _⟩ => ⟨S2097152x64, .f32⟩
  | .hbm, ⟨11, _⟩ => ⟨S_, .f32⟩
  | .hbm, ⟨12, _⟩ => ⟨S2097152x64, .f32⟩
  | .hbm, ⟨13, _⟩ => ⟨S2097152x64, .f32⟩
  | .hbm, ⟨14, _⟩ => ⟨S2097152x64, .f32⟩
  | .hbm, ⟨15, _⟩ => ⟨S_, .f32⟩
  | .hbm, ⟨16, _⟩ => ⟨S2097152x64, .f32⟩
  | .hbm, ⟨17, _⟩ => ⟨S2097152x64, .f32⟩
  | .hbm, ⟨18, _⟩ => ⟨S2097152x16, .f32⟩
  | .hbm, ⟨19, _⟩ => ⟨S2097152x1, .f32⟩
  | .hbm, ⟨20, _⟩ => ⟨S2097152, .f32⟩
  | .hbm, ⟨21, _⟩ => ⟨S2097152x15, .f32⟩
  | .hbm, ⟨22, _⟩ => ⟨S2097152x31, .f32⟩
  | .hbm, ⟨23, _⟩ => ⟨S2097152x64, .f32⟩
  | .hbm, ⟨24, _⟩ => ⟨S_, .f32⟩
  | .hbm, ⟨25, _⟩ => ⟨S2097152x64, .f32⟩
  | .hbm, ⟨26, _⟩ => ⟨S2097152x64, .f32⟩
  | .hbm, ⟨27, _⟩ => ⟨S2097152x64, .f32⟩
  | .hbm, ⟨28, _⟩ => ⟨S_, .f32⟩
  | .hbm, ⟨29, _⟩ => ⟨S2097152x64, .f32⟩
  | .hbm, ⟨30, _⟩ => ⟨S2097152x64, .f32⟩
  | .hbm, ⟨31, _⟩ => ⟨S2097152x64, .f32⟩
  | .hbm, ⟨32, _⟩ => ⟨S_, .f32⟩
  | .hbm, ⟨33, _⟩ => ⟨S2097152x64, .f32⟩
  | .hbm, ⟨34, _⟩ => ⟨S2097152x64, .f32⟩
  | .hbm, ⟨35, _⟩ => ⟨S2097152x3, .f32⟩
  | .hbm, ⟨36, _⟩ => ⟨S2097152x1, .f32⟩
  | .hbm, ⟨37, _⟩ => ⟨S2097152x4, .f32⟩
  | _, _ => ⟨S2097152x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_cst : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_call1_cst : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call2_cst : Ref sig .tc := ⟨.hbm, 24, rfl⟩
abbrev main_call2_v0 : Ref sig .tc := ⟨.hbm, 25, rfl⟩
abbrev main_v12 : Ref sig .tc := ⟨.hbm, 26, rfl⟩
abbrev main_v13 : Ref sig .tc := ⟨.hbm, 27, rfl⟩
abbrev main_call3_cst : Ref sig .tc := ⟨.hbm, 28, rfl⟩
abbrev main_call3_v0 : Ref sig .tc := ⟨.hbm, 29, rfl⟩
abbrev main_v14 : Ref sig .tc := ⟨.hbm, 30, rfl⟩
abbrev main_v15 : Ref sig .tc := ⟨.hbm, 31, rfl⟩
abbrev main_call4_cst : Ref sig .tc := ⟨.hbm, 32, rfl⟩
abbrev main_call4_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]

class Facts₀ : Prop where
  slices_S2097152x48_S2097152x32_0_0 : S2097152x48.Slices ![0, 0] S2097152x32
  slices_S2097152x48_S2097152x16_0_32 : S2097152x48.Slices ![0, 32] S2097152x16
  bcast_S_S2097152x64 : S_.BroadcastsInDim S2097152x64 (![] : Fin 0 → Fin S2097152x64.rank)
  slices_S2097152x16_S2097152x1_0_0 : S2097152x16.Slices ![0, 0] S2097152x1
  shapeCasts_S2097152x1_S2097152 : S2097152x1.ShapeCasts S2097152
  slices_S2097152x16_S2097152x15_0_1 : S2097152x16.Slices ![0, 1] S2097152x15
  concatenates_S2097152x16_S2097152x15_S2097152x31_d1 : Shape.Concatenates [S2097152x16, S2097152x15] S2097152x31 1
  bcast_S2097152_S2097152x1_0 : S2097152.BroadcastsInDim S2097152x1 (![0] : Fin 1 → Fin S2097152x1.rank)
  concatenates_S2097152x3_S2097152x1_S2097152x4_d1 : Shape.Concatenates [S2097152x3, S2097152x1] S2097152x4 1
  dot_S2097152x32_S32x64_S2097152x64_1_0_0_1_n_n_wf : DotDims.WF S2097152x32 S32x64 S2097152x64 [1] [0] [0] [1] [] []
  dot_S2097152x64_S64x64_S2097152x64_1_0_0_1_n_n_wf : DotDims.WF S2097152x64 S64x64 S2097152x64 [1] [0] [0] [1] [] []
  dot_S2097152x64_S64x16_S2097152x16_1_0_0_1_n_n_wf : DotDims.WF S2097152x64 S64x16 S2097152x16 [1] [0] [0] [1] [] []
  dot_S2097152x31_S31x64_S2097152x64_1_0_0_1_n_n_wf : DotDims.WF S2097152x31 S31x64 S2097152x64 [1] [0] [0] [1] [] []
  dot_S2097152x64_S64x3_S2097152x3_1_0_0_1_n_n_wf : DotDims.WF S2097152x64 S64x3 S2097152x3 [1] [0] [0] [1] [] []

variable [Facts₀]

def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x16_S2097152x16_1_0_0_1_n_n : DotDims S2097152x64 S64x16 S2097152x16 where
  lhsContracting := [1]
  rhsContracting := [0]
  lhsNonContracting := [0]
  rhsNonContracting := [1]
  lhsBatch := []
  rhsBatch := []
  wf := dot_S2097152x64_S64x16_S2097152x16_1_0_0_1_n_n_wf
def dot_S2097152x31_S31x64_S2097152x64_1_0_0_1_n_n : DotDims S2097152x31 S31x64 S2097152x64 where
  lhsContracting := [1]
  rhsContracting := [0]
  lhsNonContracting := [0]
  rhsNonContracting := [1]
  lhsBatch := []
  rhsBatch := []
  wf := dot_S2097152x31_S31x64_S2097152x64_1_0_0_1_n_n_wf
def dot_S2097152x64_S64x3_S2097152x3_1_0_0_1_n_n : DotDims S2097152x64 S64x3 S2097152x3 where
  lhsContracting := [1]
  rhsContracting := [0]
  lhsNonContracting := [0]
  rhsNonContracting := [1]
  lhsBatch := []
  rhsBatch := []
  wf := dot_S2097152x64_S64x3_S2097152x3_1_0_0_1_n_n_wf

class Facts : Prop extends Facts₀ where

variable [Facts]
-- ==== Proof.LibPlainDot.lean ====
/-
  A plain product of two rank-two arrays — rows × contraction times contraction × columns, no batch axis — read at
  coordinates, at the ideal values. Entry (p, j) of the product is the sum, over the contraction coordinate a, of
  lhs (p, a) · rhs (a, j). This holds of the matrix unit's product into an all-zero accumulator and of the host's
  dot_general alike: at the ideal values neither rounds, and neither fixes an order of summation that matters.
  The only work is to name the operand indices of the dimension numbers by coordinates and to re-index the sum over the
  one-axis contraction index set by its coordinate.
-/
import Idealize.ShloMosaic.Lib.ValueIdx
import Idealize.ShloMosaic.PureOps.Ideal.Laws

noncomputable section

open scoped BigOperators

namespace Cert.PlainDot

open Idealize.ShloMosaic Idealize.ShloMosaic.ValueIdx

variable {M K N : Nat} {φ₁ φ₂ : FTy}

/-- The contraction index set of a plain product is its one coordinate's range. -/
abbrev contrCoord (M K N : Nat) : (DotDims.plain M K N).contr.Idx ≃ Fin K :=
  contrEquiv1 (DotDims.plain M K N) K rfl rfl

/-- At output entry (p, j) and contraction coordinate a, the left operand is read at (p, a). -/
theorem lhsIdx_coords (p : Fin M) (j : Fin N) (a : Fin K) :
    (DotDims.plain M K N).lhsIdx (ix2 p j) ((contrCoord M K N).symm a) = ix2 p a := by
  funext d
  apply Fin.ext
  match d with
  | ⟨0, _⟩ => rfl
  | ⟨1, _⟩ =>
    exact ((DotDims.plain M K N).lhsIdx_val_of_single (cl := (1 : Fin 2)) rfl (ix2 p j) _).trans
      (contrEquiv1_symm_val (DotDims.plain M K N) K rfl rfl a)

/-- At output entry (p, j) and contraction coordinate a, the right operand is read at (a, j). -/
theorem rhsIdx_coords (p : Fin M) (j : Fin N) (a : Fin K) :
    (DotDims.plain M K N).rhsIdx (ix2 p j) ((contrCoord M K N).symm a) = ix2 a j := by
  funext d
  apply Fin.ext
  match d with
  | ⟨0, _⟩ =>
    exact ((DotDims.plain M K N).rhsIdx_val_of_single (cr := (0 : Fin 2)) rfl (ix2 p j) _).trans
      (contrEquiv1_symm_val (DotDims.plain M K N) K rfl rfl a)
  | ⟨1, _⟩ => rfl

/-- The matrix unit's plain product into the all-zero accumulator, at entry (p, j): the sum over the contraction
    coordinate of the operands' products. -/
theorem matmul_zero_apply (prec : Option ContractPrecision) (A : FVec Ideal (⟨2, ![M, K]⟩ : Shape) φ₁)
    (B : FVec Ideal (⟨2, ![K, N]⟩ : Shape) φ₂) (p : Fin M) (j : Fin N) :
    FloatOps.matmul (DotDims.plain M K N) prec A B (constant (⟨2, ![M, N]⟩ : Shape) .f32 0x00000000#32) (ix2 p j)
      = ∑ a : Fin K, A (ix2 p a) * B (ix2 a j) := by
  rw [Ideal.matmul_constant_zero_apply, ← Equiv.sum_comp (contrCoord M K N).symm]
  exact Finset.sum_congr rfl fun a _ => by rw [lhsIdx_coords, rhsIdx_coords]

/-- The host's plain dot_general at entry (p, j): the same sum. -/
theorem dotGeneral_apply (prec : Option ContractPrecision) (sched : HostSchedule) (A : FVec Ideal (⟨2, ![M, K]⟩ : Shape) φ₁)
    (B : FVec Ideal (⟨2, ![K, N]⟩ : Shape) φ₂) (p : Fin M) (j : Fin N) :
    FloatOps.dotGeneral (DotDims.plain M K N) prec sched A B (ix2 p j) = ∑ a : Fin K, A (ix2 p a) * B (ix2 a j) := by
  rw [Ideal.dotGeneral_apply, ← Equiv.sum_comp (contrCoord M K N).symm]
  exact Finset.sum_congr rfl fun a _ => by rw [lhsIdx_coords, rhsIdx_coords]

end Cert.PlainDot

end
-- ==== Proof.LibConcatCols.lean ====
/-
  Two rank-two arrays with the same number of rows, laid side by side (concatenated along the columns), read at
  coordinates. Entry (p, j) of the joined array is entry (p, j) of the left piece while j is below the left piece's
  width, and entry (p, j − width) of the right piece from there on.
-/
import Idealize.ShloMosaic.Lib.ValueIdx
import Idealize.ShloMosaic.Lib.Pipeline.Value

noncomputable section

namespace Cert.ConcatCols

open Idealize.ShloMosaic Idealize.ShloMosaic.ValueIdx

variable {α : Type} {n a b c : Nat}

/-- A column inside the left piece reads the left piece at the same coordinates. -/
theorem left (x₁ : (⟨2, ![n, a]⟩ : Shape).Idx → α) (x₂ : (⟨2, ![n, b]⟩ : Shape).Idx → α)
    (h : Shape.Concatenates [(⟨2, ![n, a]⟩ : Shape), (⟨2, ![n, b]⟩ : Shape)] (⟨2, ![n, c]⟩ : Shape) (1 : Fin 2))
    (p : Fin n) (j : Fin c) (i : Fin a) (hi : i.val = j.val) :
    concatenate (⟨2, ![n, c]⟩ : Shape) (1 : Fin 2) [⟨(⟨2, ![n, a]⟩ : Shape), x₁⟩, ⟨(⟨2, ![n, b]⟩ : Shape), x₂⟩] h (ix2 p j)
      = x₁ (ix2 p i) :=
  concatenate_pair_apply_left (t := (⟨2, ![n, c]⟩ : Shape)) (s₁ := (⟨2, ![n, a]⟩ : Shape)) (s₂ := (⟨2, ![n, b]⟩ : Shape))
    (1 : Fin 2) x₁ x₂ h (ix2 p j) rfl (ix2 p i) (fun d => by
    match d with
    | ⟨0, _⟩ => rfl
    | ⟨1, _⟩ => exact hi)

/-- A column past the left piece reads the right piece, its column less the left piece's width. -/
theorem right (x₁ : (⟨2, ![n, a]⟩ : Shape).Idx → α) (x₂ : (⟨2, ![n, b]⟩ : Shape).Idx → α)
    (h : Shape.Concatenates [(⟨2, ![n, a]⟩ : Shape), (⟨2, ![n, b]⟩ : Shape)] (⟨2, ![n, c]⟩ : Shape) (1 : Fin 2))
    (p : Fin n) (j : Fin c) (i : Fin b) (hi : i.val + a = j.val) :
    concatenate (⟨2, ![n, c]⟩ : Shape) (1 : Fin 2) [⟨(⟨2, ![n, a]⟩ : Shape), x₁⟩, ⟨(⟨2, ![n, b]⟩ : Shape), x₂⟩] h (ix2 p j)
      = x₂ (ix2 p i) :=
  concatenate_pair_apply_right (t := (⟨2, ![n, c]⟩ : Shape)) (s₁ := (⟨2, ![n, a]⟩ : Shape)) (s₂ := (⟨2, ![n, b]⟩ : Shape))
    (1 : Fin 2) x₁ x₂ h (ix2 p j) rfl rfl (ix2 p i) (fun d hd => by
    match d with
    | ⟨0, _⟩ => rfl
    | ⟨1, _⟩ => exact absurd rfl hd) (by show i.val + a = j.val; exact hi)

end Cert.ConcatCols

end
-- ==== Proof.RowNet.lean ====
/-
  What both programs compute, one row at a time.

  A row of the input has 48 entries. Its first 32 go through the density network — three bias-free linear layers, 32 → 64 →
  64 → 16, a rectifier after the first two — whose output 0 is the density and whose outputs 1 to 15 are features. The
  row's last 16 entries, followed by those 15 features, go through the colour network — four bias-free linear layers,
  31 → 64 → 64 → 64 → 3, a rectifier after the first three. The result row is the three colours followed by the density.

  Everything is over the extended reals: a linear layer is the plain sum of products, the rectifier is the larger of an
  entry and the value of the all-zero word. No row of the result depends on any other row of the input, which is why a
  program that works through the rows in blocks and one that takes them all at once agree.
-/
import Idealize.ShloMosaic.Lib.ValueIdx
import Idealize.ShloMosaic.PureOps.Ideal.Laws

noncomputable section

open scoped BigOperators

namespace Cert.RowNet

open Idealize.ShloMosaic Idealize.ShloMosaic.ValueIdx

/-- A `k × n` array of extended reals, indexed by row and column. -/
abbrev Arr (k n : Nat) : Type := FVec Ideal (⟨2, ![k, n]⟩ : Shape) .f32

/-- A bias-free linear layer on one row: entry `j` is the sum over `a` of `u a · w[a, j]`. -/
def layer {k n : Nat} (u : Fin k → EReal) (w : Arr k n) : Fin n → EReal :=
  fun j => ∑ a : Fin k, u a * w (ix2 a j)

/-- The rectifier, entry by entry: the larger of the entry and the all-zero word's value. -/
def relu {n : Nat} (u : Fin n → EReal) : Fin n → EReal :=
  fun j => max (u j) (Ideal.ofBits .f32 0x00000000#32)

/-- The first 32 entries of a row. -/
def points (x : Fin 48 → EReal) : Fin 32 → EReal := fun a => x ⟨a.val, by have := a.isLt; omega⟩

/-- The density network's 16 outputs. -/
def density (x : Fin 48 → EReal) (s0 : Arr 32 64) (s1 : Arr 64 64) (s2 : Arr 64 16) : Fin 16 → EReal :=
  layer (relu (layer (relu (layer (points x) s0)) s1)) s2

/-- The colour network's 31 inputs: the row's last 16 entries, then density outputs 1 to 15. -/
def viewsAndFeatures (x : Fin 48 → EReal) (g : Fin 16 → EReal) : Fin 31 → EReal :=
  fun a => if h : a.val < 16 then x ⟨32 + a.val, by omega⟩ else g ⟨a.val - 16 + 1, by have := a.isLt; omega⟩

/-- The colour network's 3 outputs. -/
def colour (u : Fin 31 → EReal) (c0 : Arr 31 64) (c1 c2 : Arr 64 64) (c3 : Arr 64 3) : Fin 3 → EReal :=
  layer (relu (layer (relu (layer (relu (layer u c0)) c1)) c2)) c3

/-- One row of the result: the three colours, then the density. -/
def outRow (x : Fin 48 → EReal) (s0 : Arr 32 64) (s1 : Arr 64 64) (s2 : Arr 64 16)
    (c0 : Arr 31 64) (c1 c2 : Arr 64 64) (c3 : Arr 64 3) : Fin 4 → EReal :=
  fun q => if h : q.val < 3 then colour (viewsAndFeatures x (density x s0 s1 s2)) c0 c1 c2 c3 ⟨q.val, h⟩
    else density x s0 s1 s2 ⟨0, by decide⟩

/-- Row `r` of an array with `n` columns. -/
def row {m n : Nat} (X : Arr m n) (r : Fin m) : Fin n → EReal := fun a => X (ix2 r a)

/-- The whole result: row `r` of it is `outRow` of row `r` of the input. -/
def result (X : Arr 2097152 48) (s0 : Arr 32 64) (s1 : Arr 64 64) (s2 : Arr 64 16)
    (c0 : Arr 31 64) (c1 c2 : Arr 64 64) (c3 : Arr 64 3) : Arr 2097152 4 :=
  fun i => outRow (row X (i 0)) s0 s1 s2 c0 c1 c2 c3 (i 1)

theorem result_apply (X : Arr 2097152 48) (s0 : Arr 32 64) (s1 : Arr 64 64) (s2 : Arr 64 16)
    (c0 : Arr 31 64) (c1 c2 : Arr 64 64) (c3 : Arr 64 3) (r : Fin 2097152) (q : Fin 4) :
    result X s0 s1 s2 c0 c1 c2 c3 (ix2 r q) = outRow (row X r) s0 s1 s2 c0 c1 c2 c3 q := rfl

end Cert.RowNet

end
-- ==== Proof.KernelRows.lean ====
/-
  The kernel's body, read one entry at a time.

  The body loads a block of 8192 rows of the input and the seven weight arrays whole, and stores one block of 8192 result
  rows. Its value is a chain of plain products into all-zero accumulators, rectifiers against a splat zero, two column
  cuts and two side-by-side joins; the narrowings to sixteen bits in front of every product change nothing at the ideal
  values. Read at row p and column q, each stage involves row p of the block and nothing else, and the chain is
  the row function `RowNet.outRow` of that row.
-/
import proofs.«100441_j9689446220225_1_alg».proof.Proof.Gen.KernelIdeal.Skeleton
import proofs.«100441_j9689446220225_1_alg».proof.Proof.LibPlainDot
import proofs.«100441_j9689446220225_1_alg».proof.Proof.LibConcatCols
import proofs.«100441_j9689446220225_1_alg».proof.Proof.RowNet
import Idealize.ShloMosaic.Lib.ValueLayout

noncomputable section

open scoped BigOperators

namespace Cert.KernelRows

open Cert.KernelIdeal Cert.KernelIdeal.Gen Idealize.ShloMosaic Idealize.ShloMosaic.ValueIdx Cert.RowNet

/-! ## The five products, each the plain sum over the contraction coordinate -/

theorem mm_32_64 (A : FVec Ideal S8192x32 .bf16) (B : FVec Ideal S32x64 .bf16) (p : Fin 8192) (j : Fin 64) :
    matmul dot_S8192x32_S32x64_S8192x64_1_0_0_1_n_n none A B (constant S8192x64 .f32 0x00000000#32) (ix2 p j)
      = ∑ a : Fin 32, A (ix2 p a) * B (ix2 a j) :=
  PlainDot.matmul_zero_apply none A B p j

theorem mm_64_64 (A : FVec Ideal S8192x64 .bf16) (B : FVec Ideal S64x64 .bf16) (p : Fin 8192) (j : Fin 64) :
    matmul dot_S8192x64_S64x64_S8192x64_1_0_0_1_n_n none A B (constant S8192x64 .f32 0x00000000#32) (ix2 p j)
      = ∑ a : Fin 64, A (ix2 p a) * B (ix2 a j) :=
  PlainDot.matmul_zero_apply none A B p j

theorem mm_64_16 (A : FVec Ideal S8192x64 .bf16) (B : FVec Ideal S64x16 .bf16) (p : Fin 8192) (j : Fin 16) :
    matmul dot_S8192x64_S64x16_S8192x16_1_0_0_1_n_n none A B (constant S8192x16 .f32 0x00000000#32) (ix2 p j)
      = ∑ a : Fin 64, A (ix2 p a) * B (ix2 a j) :=
  PlainDot.matmul_zero_apply none A B p j

theorem mm_31_64 (A : FVec Ideal S8192x31 .bf16) (B : FVec Ideal S31x64 .bf16) (p : Fin 8192) (j : Fin 64) :
    matmul dot_S8192x31_S31x64_S8192x64_1_0_0_1_n_n none A B (constant S8192x64 .f32 0x00000000#32) (ix2 p j)
      = ∑ a : Fin 31, A (ix2 p a) * B (ix2 a j) :=
  PlainDot.matmul_zero_apply none A B p j

theorem mm_64_3 (A : FVec Ideal S8192x64 .bf16) (B : FVec Ideal S64x3 .bf16) (p : Fin 8192) (j : Fin 3) :
    matmul dot_S8192x64_S64x3_S8192x3_1_0_0_1_n_n none A B (constant S8192x3 .f32 0x00000000#32) (ix2 p j)
      = ∑ a : Fin 64, A (ix2 p a) * B (ix2 a j) :=
  PlainDot.matmul_zero_apply none A B p j

/-! ## The density network on a block -/

/-- The block's first 32 columns, at (p, a): the row's entry a. -/
theorem points_at (xb : FVec Ideal S8192x48 .f32) (h : S8192x48.Slices ![0, 0] S8192x32) (p : Fin 8192) (a : Fin 32) :
    extractStridedSlice S8192x32 ![0, 0] xb h (ix2 p a) = points (row xb p) a :=
  slice2_axis1_apply 0 xb h p a ⟨a.val, by have := a.isLt; omega⟩ (by show a.val = 0 + a.val; omega)

/-- The third product of the density network, at (p, j): output j of the density network on row p. -/
theorem pay2_at (xb : FVec Ideal S8192x48 .f32) (s0 : FVec Ideal S32x64 .f32) (s1 : FVec Ideal S64x64 .f32)
    (s2 : FVec Ideal S64x16 .f32) (p : Fin 8192) (j : Fin 16) :
    k0_pay2 (F := Ideal) xb s0 s1 s2 (ix2 p j) = density (row xb p) s0 s1 s2 j := by
  unfold k0_pay2 density layer relu
  simp only [mm_64_16, mm_64_64, mm_32_64, maximumf_apply, truncf_apply, broadcast_apply, points_at]
  rfl

/-- Column 0 of the density network's output, at (p, 0): the density of row p. -/
theorem pay3_at (xb : FVec Ideal S8192x48 .f32) (s0 : FVec Ideal S32x64 .f32) (s1 : FVec Ideal S64x64 .f32)
    (s2 : FVec Ideal S64x16 .f32) (p : Fin 8192) (z : Fin 1) :
    k0_pay3 (F := Ideal) xb s0 s1 s2 (ix2 p z) = density (row xb p) s0 s1 s2 ⟨0, by decide⟩ := by
  unfold k0_pay3
  refine (slice2_axis1_apply 0 _ _ p z ⟨0, by decide⟩ (by have := z.isLt; show 0 = 0 + z.val; omega)).trans ?_
  exact pay2_at xb s0 s1 s2 p ⟨0, by decide⟩

/-! ## The colour network on a block -/

/-- The block's last 16 columns beside columns 1 to 15 of the density network's output, at (p, a): input a of the
    colour network on row p. -/
theorem joined_at (xb : FVec Ideal S8192x48 .f32) (s0 : FVec Ideal S32x64 .f32) (s1 : FVec Ideal S64x64 .f32)
    (s2 : FVec Ideal S64x16 .f32) (h1 : S8192x48.Slices ![0, 32] S8192x16) (h2 : S8192x16.Slices ![0, 1] S8192x15)
    (hc : Shape.Concatenates [S8192x16, S8192x15] S8192x31 1) (p : Fin 8192) (a : Fin 31) :
    concatenate S8192x31 1 [⟨S8192x16, extractStridedSlice S8192x16 ![0, 32] xb h1⟩,
        ⟨S8192x15, extractStridedSlice S8192x15 ![0, 1] (k0_pay2 (F := Ideal) xb s0 s1 s2) h2⟩] hc (ix2 p a)
      = viewsAndFeatures (row xb p) (density (row xb p) s0 s1 s2) a := by
  unfold viewsAndFeatures
  by_cases h : a.val < 16
  · rw [dif_pos h]
    refine (ConcatCols.left _ _ hc p a ⟨a.val, h⟩ rfl).trans ?_
    exact slice2_axis1_apply 32 xb h1 p ⟨a.val, h⟩ ⟨32 + a.val, by omega⟩ rfl
  · rw [dif_neg h]
    have ha := a.isLt
    refine (ConcatCols.right _ _ hc p a ⟨a.val - 16, by omega⟩ (by show a.val - 16 + 16 = a.val; omega)).trans ?_
    refine (slice2_axis1_apply 1 _ h2 p ⟨a.val - 16, by omega⟩ ⟨a.val - 16 + 1, by omega⟩
      (by show a.val - 16 + 1 = 1 + (a.val - 16); omega)).trans ?_
    exact pay2_at xb s0 s1 s2 p _

/-- The colour network's second hidden layer after its rectifier, at (p, j). -/
theorem pay4_at (xb : FVec Ideal S8192x48 .f32) (s0 : FVec Ideal S32x64 .f32) (s1 : FVec Ideal S64x64 .f32)
    (s2 : FVec Ideal S64x16 .f32) (c0 : FVec Ideal S31x64 .f32) (c1 : FVec Ideal S64x64 .f32) (p : Fin 8192) (j : Fin 64) :
    k0_pay4 (F := Ideal) xb s0 s1 s2 c0 c1 (ix2 p j)
      = relu (layer (relu (layer (viewsAndFeatures (row xb p) (density (row xb p) s0 s1 s2)) c0)) c1) j := by
  unfold k0_pay4
  simp only [mm_64_64, mm_31_64, maximumf_apply, truncf_apply, broadcast_apply, joined_at, layer, relu]
  rfl

/-- THE STORED BLOCK at (p, q): entry q of the result row of the block's row p. -/
theorem block_at (xb : FVec Ideal S8192x48 .f32) (s0 : FVec Ideal S32x64 .f32) (s1 : FVec Ideal S64x64 .f32)
    (s2 : FVec Ideal S64x16 .f32) (c0 : FVec Ideal S31x64 .f32) (c1 c2 : FVec Ideal S64x64 .f32) (c3 : FVec Ideal S64x3 .f32)
    (p : Fin 8192) (q : Fin 4) :
    k0_pay1 (F := Ideal) (k0_pay3 xb s0 s1 s2) (k0_pay4 xb s0 s1 s2 c0 c1) c2 c3 (ix2 p q)
      = outRow (row xb p) s0 s1 s2 c0 c1 c2 c3 q := by
  unfold k0_pay1 outRow
  by_cases h : q.val < 3
  · rw [dif_pos h]
    refine (ConcatCols.left _ _ _ p q ⟨q.val, h⟩ rfl).trans ?_
    simp only [mm_64_3, mm_64_64, maximumf_apply, truncf_apply, broadcast_apply, pay4_at, colour, layer, relu]
    rfl
  · rw [dif_neg h]
    have hq := q.isLt
    refine (ConcatCols.right _ _ _ p q ⟨0, by decide⟩ (by show 0 + 3 = q.val; omega)).trans ?_
    exact pay3_at xb s0 s1 s2 p _

end Cert.KernelRows

end
-- ==== Proof.KernelArray.lean ====
/-
  From the kernel's blocks to its result array.

  The grid has 256 points. At point t the input window holds rows 8192·t … 8192·t + 8191 of the input (all 48 columns),
  each of the seven weight windows holds its whole array, and the output window's block is rows 8192·t … 8192·t + 8191 of
  the result (all 4 columns). The body's stored block at (p, q) is the result row of the block's row p (`KernelRows`),
  and the block's row p is row 8192·t + p of the input: so point t writes back exactly block t of `RowNet.result` of the
  argument arrays. The 256 blocks cover all 2097152 rows (row r lies in block r / 8192), hence after the run the result
  array is `RowNet.result` of the arguments.
-/
import proofs.«100441_j9689446220225_1_alg».proof.Proof.Gen.KernelIdeal.Value
import proofs.«100441_j9689446220225_1_alg».proof.Proof.KernelRows
import proofs.«100441_j9689446220225_1_alg».proof.Proof.RowNet

noncomputable section

namespace Cert.KernelArray

open Cert.KernelIdeal Cert.KernelIdeal.Gen Idealize.ShloMosaic Idealize.ShloMosaic.TcCoe Idealize.SL.Sem
open Idealize.ShloMosaic.ValueIdx Cert.RowNet
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 256 points -/

/-- The input's and the result's windows move down the rows one block per point and never sideways. -/
theorem idx_rows : ∀ t : Fin cfg0.N, win0_0.index t (0 : Fin 2) = t.val ∧ win0_0.index t (1 : Fin 2) = 0
    ∧ win0_8.index t (0 : Fin 2) = t.val ∧ win0_8.index t (1 : Fin 2) = 0 :=
  (by decide +kernel : ∀ t : Fin grid0.N, _)

/-- The weight windows stay at block (0, 0). -/
theorem idx_weights : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem pt_lt (t : Fin cfg0.N) : t.val < 256 := by
  have hN : cfg0.N = 256 := N_0
  have := t.isLt
  omega

/-- Row p of block t is row 8192·t + p of the array. -/
def rowOf (t : Fin cfg0.N) (p : Fin 8192) : Fin 2097152 := ⟨t.val * 8192 + p.val, by have := pt_lt t; have := p.isLt; omega⟩

/-! ## The result, of the argument arrays as the region finds them -/

abbrev G (c : Dev nD) : FVec Ideal S2097152x4 .f32 :=
  result (V m c main_arg0) (V m c main_arg1) (V m c main_arg2) (V m c main_arg3) (V m c main_arg4) (V m c main_arg5)
    (V m c main_arg6) (V m c main_arg7)

/-! ## The windows' blocks, read off the arrays -/

/-- Row p of the input window's block at point t is row 8192·t + p of the input. -/
theorem input_row (c : Dev nD) (t : Fin cfg0.N) (p : Fin 8192) :
    row (iblk m c 0 t : FVec Ideal S8192x48 .f32) p = row (V m c main_arg0 : FVec Ideal S2097152x48 .f32) (rowOf t p) := by
  funext a
  show V m c main_arg0 (((cfg0.win 0).blk t).view.emb (ix2 p a)) = V m c main_arg0 (ix2 (rowOf t p) a)
  obtain ⟨e0, e1, -, -⟩ := idx_rows t
  refine congrArg (V m c main_arg0) (funext fun d => Fin.ext ?_)
  match d with
  | ⟨0, _⟩ => show win0_0.index t (0 : Fin 2) * 8192 + 1 * p.val = t.val * 8192 + p.val; omega
  | ⟨1, _⟩ => show win0_0.index t (1 : Fin 2) * 48 + 1 * a.val = a.val; omega

/-! Each weight window stays at block (0, 0) and its block has the array's own extents, so at every point the block is the
    whole array: a rectangle at offset zero of full extent reads an array as it is. -/

theorem weights1 (c : Dev nD) (t : Fin cfg0.N) : (iblk m c 1 t : FVec Ideal S32x64 .f32) = V m c main_arg1 := by
  have e := idx_weights t
  have hoff : (fun a => win0_1.index t a * main_arg1.ty.shape.size a) = fun _ => 0 := funext fun a => by
    match a with
    | ⟨0, _⟩ => show win0_1.index t (0 : Fin 2) * 32 = 0; omega
    | ⟨1, _⟩ => show win0_1.index t (1 : Fin 2) * 64 = 0; omega
  exact Memref.read_access_unit_zero (Elt Ideal) main_arg1 hoff (fun a => by rw [congrFun hoff a]; simp) (V m c main_arg1)

theorem weights2 (c : Dev nD) (t : Fin cfg0.N) : (iblk m c 2 t : FVec Ideal S64x64 .f32) = V m c main_arg2 := by
  have e := idx_weights t
  have hoff : (fun a => win0_2.index t a * main_arg2.ty.shape.size a) = fun _ => 0 := funext fun a => by
    match a with
    | ⟨0, _⟩ => show win0_2.index t (0 : Fin 2) * 64 = 0; omega
    | ⟨1, _⟩ => show win0_2.index t (1 : Fin 2) * 64 = 0; omega
  exact Memref.read_access_unit_zero (Elt Ideal) main_arg2 hoff (fun a => by rw [congrFun hoff a]; simp) (V m c main_arg2)

theorem weights3 (c : Dev nD) (t : Fin cfg0.N) : (iblk m c 3 t : FVec Ideal S64x16 .f32) = V m c main_arg3 := by
  have e := idx_weights t
  have hoff : (fun a => win0_3.index t a * main_arg3.ty.shape.size a) = fun _ => 0 := funext fun a => by
    match a with
    | ⟨0, _⟩ => show win0_3.index t (0 : Fin 2) * 64 = 0; omega
    | ⟨1, _⟩ => show win0_3.index t (1 : Fin 2) * 16 = 0; omega
  exact Memref.read_access_unit_zero (Elt Ideal) main_arg3 hoff (fun a => by rw [congrFun hoff a]; simp) (V m c main_arg3)

theorem weights4 (c : Dev nD) (t : Fin cfg0.N) : (iblk m c 4 t : FVec Ideal S31x64 .f32) = V m c main_arg4 := by
  have e := idx_weights t
  have hoff : (fun a => win0_4.index t a * main_arg4.ty.shape.size a) = fun _ => 0 := funext fun a => by
    match a with
    | ⟨0, _⟩ => show win0_4.index t (0 : Fin 2) * 31 = 0; omega
    | ⟨1, _⟩ => show win0_4.index t (1 : Fin 2) * 64 = 0; omega
  exact Memref.read_access_unit_zero (Elt Ideal) main_arg4 hoff (fun a => by rw [congrFun hoff a]; simp) (V m c main_arg4)

theorem weights5 (c : Dev nD) (t : Fin cfg0.N) : (iblk m c 5 t : FVec Ideal S64x64 .f32) = V m c main_arg5 := by
  have e := idx_weights t
  have hoff : (fun a => win0_5.index t a * main_arg5.ty.shape.size a) = fun _ => 0 := funext fun a => by
    match a with
    | ⟨0, _⟩ => show win0_5.index t (0 : Fin 2) * 64 = 0; omega
    | ⟨1, _⟩ => show win0_5.index t (1 : Fin 2) * 64 = 0; omega
  exact Memref.read_access_unit_zero (Elt Ideal) main_arg5 hoff (fun a => by rw [congrFun hoff a]; simp) (V m c main_arg5)

theorem weights6 (c : Dev nD) (t : Fin cfg0.N) : (iblk m c 6 t : FVec Ideal S64x64 .f32) = V m c main_arg6 := by
  have e := idx_weights t
  have hoff : (fun a => win0_6.index t a * main_arg6.ty.shape.size a) = fun _ => 0 := funext fun a => by
    match a with
    | ⟨0, _⟩ => show win0_6.index t (0 : Fin 2) * 64 = 0; omega
    | ⟨1, _⟩ => show win0_6.index t (1 : Fin 2) * 64 = 0; omega
  exact Memref.read_access_unit_zero (Elt Ideal) main_arg6 hoff (fun a => by rw [congrFun hoff a]; simp) (V m c main_arg6)

theorem weights7 (c : Dev nD) (t : Fin cfg0.N) : (iblk m c 7 t : FVec Ideal S64x3 .f32) = V m c main_arg7 := by
  have e := idx_weights t
  have hoff : (fun a => win0_7.index t a * main_arg7.ty.shape.size a) = fun _ => 0 := funext fun a => by
    match a with
    | ⟨0, _⟩ => show win0_7.index t (0 : Fin 2) * 64 = 0; omega
    | ⟨1, _⟩ => show win0_7.index t (1 : Fin 2) * 3 = 0; omega
  exact Memref.read_access_unit_zero (Elt Ideal) main_arg7 hoff (fun a => by rw [congrFun hoff a]; simp) (V m c main_arg7)

/-- The output window's block at point t sits at rows 8192·t … of the result. -/
theorem output_index (t : Fin cfg0.N) (p : Fin 8192) (q : Fin 4) :
    ((cfg0.win 8).blk t).view.emb (ix2 p q) = (ix2 (rowOf t p) q : S2097152x4.Idx) := by
  obtain ⟨-, -, e0, e1⟩ := idx_rows t
  refine funext fun d => Fin.ext ?_
  match d with
  | ⟨0, _⟩ => show win0_8.index t (0 : Fin 2) * 8192 + 1 * p.val = t.val * 8192 + p.val; omega
  | ⟨1, _⟩ => show win0_8.index t (1 : Fin 2) * 4 + 1 * q.val = q.val; omega

/-! ## What a point writes back -/

/-- WHAT POINT `t` WRITES BACK is block `t` of the result of the argument arrays. -/
theorem flushed_eq (c : Dev nD) (t : Fin cfg0.N) :
    (dats m 0 c).flushed 8 t = ((cfg0.win 8).blk t).view.read (Elt Ideal) (G m c) := by
  rw [Cert.KernelIdeal.Value.flushed8]
  unfold out0_8
  rw [View.canon_unit_zero hz]
  simp only [View.ld_unit_zero (S := S8192x48) hz, View.ld_unit_zero (S := S32x64) hz, View.ld_unit_zero (S := S64x64) hz,
    View.ld_unit_zero (S := S64x16) hz, View.ld_unit_zero (S := S31x64) hz, View.ld_unit_zero (S := S64x3) hz]
  rw [weights1 m c t, weights2 m c t, weights3 m c t, weights4 m c t, weights5 m c t, weights6 m c t, weights7 m c t]
  funext y
  obtain ⟨p, q, rfl⟩ : ∃ (p : Fin 8192) (q : Fin 4), y = ix2 p q := ⟨y 0, y 1, eq_ix2 y⟩
  show k0_pay1 (F := Ideal) (k0_pay3 (iblk m c 0 t) (V m c main_arg1) (V m c main_arg2) (V m c main_arg3))
      (k0_pay4 (iblk m c 0 t) (V m c main_arg1) (V m c main_arg2) (V m c main_arg3) (V m c main_arg4) (V m c main_arg5))
      (V m c main_arg6) (V m c main_arg7) (ix2 p q)
    = G m c (((cfg0.win 8).blk t).view.emb (ix2 p q))
  rw [output_index t p q]
  refine (KernelRows.block_at (iblk m c 0 t) (V m c main_arg1) (V m c main_arg2) (V m c main_arg3) (V m c main_arg4)
    (V m c main_arg5) (V m c main_arg6) (V m c main_arg7) p q).trans ?_
  rw [input_row m c t p]
  rfl

/-! ## The blocks cover the array -/

/-- An index of the result is in point `t`'s block iff each coordinate is in the block's range on its axis. -/
theorem mem_block (t : Fin cfg0.N) (i : S2097152x4.Idx) :
    i ∈ ((cfg0.win 8).blk t).view.set ↔ ∀ a : Fin 2, win0_8.index t a * S8192x4.size a ≤ (i a).val
      ∧ (i a).val < win0_8.index t a * S8192x4.size a + S8192x4.size a := by
  show i ∈ ((View.whole main_v0).slice (win0_8.rect t)).set ↔ _
  rw [View.set_slice_whole, Rect.mem_set_unit]
  exact Iff.rfl

/-- Row r of the result lies in the block of point r / 8192, and every point writes back. -/
theorem covered (i : S2097152x4.Idx) : ∃ t : Fin cfg0.N, (cfg0.win 8).flush t = true ∧ i ∈ ((cfg0.win 8).blk t).view.set := by
  have hN : cfg0.N = 256 := N_0
  have h0 : (i 0).val < 2097152 := (i 0).isLt
  have h1 : (i 1).val < 4 := (i 1).isLt
  refine ⟨⟨(i 0).val / 8192, by omega⟩, flush0_8 _, ?_⟩
  rw [mem_block]
  obtain ⟨-, -, e0, e1⟩ := idx_rows ⟨(i 0).val / 8192, by omega⟩
  intro a
  match a with
  | ⟨0, _⟩ =>
    show win0_8.index ⟨(i 0).val / 8192, _⟩ (0 : Fin 2) * 8192 ≤ (i 0).val
      ∧ (i 0).val < win0_8.index ⟨(i 0).val / 8192, _⟩ (0 : Fin 2) * 8192 + 8192
    rw [e0]; show (i 0).val / 8192 * 8192 ≤ (i 0).val ∧ (i 0).val < (i 0).val / 8192 * 8192 + 8192; omega
  | ⟨1, _⟩ =>
    show win0_8.index ⟨(i 0).val / 8192, _⟩ (1 : Fin 2) * 4 ≤ (i 1).val
      ∧ (i 1).val < win0_8.index ⟨(i 0).val / 8192, _⟩ (1 : Fin 2) * 4 + 4
    rw [e1]; omega

/-! ## The array after the run, and the run -/

/-- THE RESULT ARRAY after the run is `RowNet.result` of the argument arrays. -/
theorem final (c : Dev nD) : (dats m 0 c).arrAt 8 cfg0.N = G m c :=
  (dats m 0 c).arrAt_eq_of_cover 8 (G m c) (fun t _ => flushed_eq m c t) covered

/-- The kernel's run, read: it terminates without a fault, the result array holds `RowNet.result` of the arguments, and
    the arguments are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelArray

end
-- ==== Proof.RefRows.lean ====
/-
  The reference, read one entry at a time.

  The reference takes all 2097152 rows at once: two column cuts of the input, the host's plain products with the seven
  weight arrays, a rectifier (the larger of an entry and a broadcast zero) after five of them, a side-by-side join in
  front of the colour network and another at the end; the density column travels through a reshape to a vector and a
  broadcast back to a column, which together change nothing. Read at row r and column q, every stage involves row r of the
  input only, and the whole is the row function `RowNet.outRow` of that row.
-/
import proofs.«100441_j9689446220225_1_alg».proof.Proof.Gen.ReferenceIdeal.Read
import proofs.«100441_j9689446220225_1_alg».proof.Proof.LibPlainDot
import proofs.«100441_j9689446220225_1_alg».proof.Proof.LibConcatCols
import proofs.«100441_j9689446220225_1_alg».proof.Proof.RowNet
import Idealize.ShloMosaic.Lib.ValueLayout

noncomputable section

open scoped BigOperators

namespace Cert.RefRows

open Cert.ReferenceIdeal Cert.ReferenceIdeal.Read Idealize.ShloMosaic Idealize.ShloMosaic.ValueIdx Cert.RowNet

/-! ## The five products, each the plain sum over the contraction coordinate -/

theorem dg_32_64 (A : FVec Ideal S2097152x32 .f32) (B : FVec Ideal S32x64 .f32) (r : Fin 2097152) (j : Fin 64) :
    Host.dotGeneral dot_S2097152x32_S32x64_S2097152x64_1_0_0_1_n_n none A B (ix2 r j)
      = ∑ a : Fin 32, A (ix2 r a) * B (ix2 a j) :=
  PlainDot.dotGeneral_apply none .single A B r j

theorem dg_64_64 (A : FVec Ideal S2097152x64 .f32) (B : FVec Ideal S64x64 .f32) (r : Fin 2097152) (j : Fin 64) :
    Host.dotGeneral dot_S2097152x64_S64x64_S2097152x64_1_0_0_1_n_n none A B (ix2 r j)
      = ∑ a : Fin 64, A (ix2 r a) * B (ix2 a j) :=
  PlainDot.dotGeneral_apply none .single A B r j

theorem dg_64_16 (A : FVec Ideal S2097152x64 .f32) (B : FVec Ideal S64x16 .f32) (r : Fin 2097152) (j : Fin 16) :
    Host.dotGeneral dot_S2097152x64_S64x16_S2097152x16_1_0_0_1_n_n none A B (ix2 r j)
      = ∑ a : Fin 64, A (ix2 r a) * B (ix2 a j) :=
  PlainDot.dotGeneral_apply none .single A B r j

theorem dg_31_64 (A : FVec Ideal S2097152x31 .f32) (B : FVec Ideal S31x64 .f32) (r : Fin 2097152) (j : Fin 64) :
    Host.dotGeneral dot_S2097152x31_S31x64_S2097152x64_1_0_0_1_n_n none A B (ix2 r j)
      = ∑ a : Fin 31, A (ix2 r a) * B (ix2 a j) :=
  PlainDot.dotGeneral_apply none .single A B r j

theorem dg_64_3 (A : FVec Ideal S2097152x64 .f32) (B : FVec Ideal S64x3 .f32) (r : Fin 2097152) (j : Fin 3) :
    Host.dotGeneral dot_S2097152x64_S64x3_S2097152x3_1_0_0_1_n_n none A B (ix2 r j)
      = ∑ a : Fin 64, A (ix2 r a) * B (ix2 a j) :=
  PlainDot.dotGeneral_apply none .single A B r j

/-! ## The rectifiers' zero: each call's broadcast constant is the all-zero word's value at every entry -/

theorem zero0_at (i : S2097152x64.Idx) : val_main_call0_v0 (F := Ideal) i = Ideal.ofBits .f32 0x00000000#32 := by
  rw [val_main_call0_v0_apply, val_main_call0_cst_apply]; rfl
theorem zero1_at (i : S2097152x64.Idx) : val_main_call1_v0 (F := Ideal) i = Ideal.ofBits .f32 0x00000000#32 := by
  rw [val_main_call1_v0_apply, val_main_call1_cst_apply]; rfl
theorem zero2_at (i : S2097152x64.Idx) : val_main_call2_v0 (F := Ideal) i = Ideal.ofBits .f32 0x00000000#32 := by
  rw [val_main_call2_v0_apply, val_main_call2_cst_apply]; rfl
theorem zero3_at (i : S2097152x64.Idx) : val_main_call3_v0 (F := Ideal) i = Ideal.ofBits .f32 0x00000000#32 := by
  rw [val_main_call3_v0_apply, val_main_call3_cst_apply]; rfl
theorem zero4_at (i : S2097152x64.Idx) : val_main_call4_v0 (F := Ideal) i = Ideal.ofBits .f32 0x00000000#32 := by
  rw [val_main_call4_v0_apply, val_main_call4_cst_apply]; rfl

/-! ## The density network on all rows -/

/-- The input's first 32 columns, at (r, a): the row's entry a. -/
theorem points_at (X : FVec Ideal S2097152x48 .f32) (r : Fin 2097152) (a : Fin 32) :
    val_main_v0 (F := Ideal) X (ix2 r a) = points (row X r) a := by
  unfold val_main_v0
  exact slice2_axis1_apply 0 X _ r a ⟨a.val, by have := a.isLt; omega⟩ (by show a.val = 0 + a.val; omega)

/-- The density network's third product, at (r, j): output j of the density network on row r. -/
theorem density_at (X : FVec Ideal S2097152x48 .f32) (s0 : FVec Ideal S32x64 .f32) (s1 : FVec Ideal S64x64 .f32)
    (s2 : FVec Ideal S64x16 .f32) (r : Fin 2097152) (j : Fin 16) :
    val_main_v6 (F := Ideal) X s0 s1 s2 (ix2 r j) = density (row X r) s0 s1 s2 j := by
  unfold val_main_v6 val_main_v5 val_main_v4 val_main_v3 val_main_v2 density
  simp only [dg_64_16, dg_64_64, dg_32_64, maximumf_apply, zero0_at, zero1_at, points_at, layer, relu]

/-- The density column after its reshape to a vector and broadcast back to a column, at (r, 0): the density of row r. -/
theorem sigma_at (X : FVec Ideal S2097152x48 .f32) (s0 : FVec Ideal S32x64 .f32) (s1 : FVec Ideal S64x64 .f32)
    (s2 : FVec Ideal S64x16 .f32) (r : Fin 2097152) (z : Fin 1) :
    val_main_v18 (F := Ideal) X s0 s1 s2 (ix2 r z) = density (row X r) s0 s1 s2 ⟨0, by decide⟩ := by
  rw [val_main_v18_apply, val_main_v8_apply, val_main_v7_apply]
  have e : idx_main_v7 (idx_main_v8 (idx_main_v18 (ix2 r z))) = ix2 r ⟨0, by decide⟩ := funext fun a => Fin.ext (by
    match a with
    | ⟨0, _⟩ => show r.val / 1 = r.val; omega
    | ⟨1, _⟩ => rfl)
  rw [e]
  exact density_at X s0 s1 s2 r _

/-! ## The colour network on all rows -/

/-- The input's last 16 columns beside columns 1 to 15 of the density network's output, at (r, a): input a of the colour
    network on row r. -/
theorem joined_at (X : FVec Ideal S2097152x48 .f32) (s0 : FVec Ideal S32x64 .f32) (s1 : FVec Ideal S64x64 .f32)
    (s2 : FVec Ideal S64x16 .f32) (r : Fin 2097152) (a : Fin 31) :
    val_main_v10 (F := Ideal) X s0 s1 s2 (ix2 r a) = viewsAndFeatures (row X r) (density (row X r) s0 s1 s2) a := by
  unfold val_main_v10 viewsAndFeatures
  by_cases h : a.val < 16
  · rw [dif_pos h]
    refine (ConcatCols.left _ _ _ r a ⟨a.val, h⟩ rfl).trans ?_
    unfold val_main_v1
    exact slice2_axis1_apply 32 X _ r ⟨a.val, h⟩ ⟨32 + a.val, by omega⟩ rfl
  · rw [dif_neg h]
    have ha := a.isLt
    refine (ConcatCols.right _ _ _ r a ⟨a.val - 16, by omega⟩ (by show a.val - 16 + 16 = a.val; omega)).trans ?_
    unfold val_main_v9
    refine (slice2_axis1_apply 1 _ _ r ⟨a.val - 16, by omega⟩ ⟨a.val - 16 + 1, by omega⟩
      (by show a.val - 16 + 1 = 1 + (a.val - 16); omega)).trans ?_
    exact density_at X s0 s1 s2 r _

/-- The colour network's output, at (r, j). -/
theorem colour_at (X : FVec Ideal S2097152x48 .f32) (s0 : FVec Ideal S32x64 .f32) (s1 : FVec Ideal S64x64 .f32)
    (s2 : FVec Ideal S64x16 .f32) (c0 : FVec Ideal S31x64 .f32) (c1 c2 : FVec Ideal S64x64 .f32) (c3 : FVec Ideal S64x3 .f32)
    (r : Fin 2097152) (j : Fin 3) :
    val_main_v17 (F := Ideal) X s0 s1 s2 c0 c1 c2 c3 (ix2 r j)
      = colour (viewsAndFeatures (row X r) (density (row X r) s0 s1 s2)) c0 c1 c2 c3 j := by
  unfold val_main_v17 val_main_v16 val_main_v15 val_main_v14 val_main_v13 val_main_v12 val_main_v11
  simp only [dg_64_3, dg_64_64, dg_31_64, maximumf_apply, zero2_at, zero3_at, zero4_at, joined_at, colour, layer, relu]

/-- THE RESULT at (r, q): entry q of the result row of the input's row r. -/
theorem result_at (X : FVec Ideal S2097152x48 .f32) (s0 : FVec Ideal S32x64 .f32) (s1 : FVec Ideal S64x64 .f32)
    (s2 : FVec Ideal S64x16 .f32) (c0 : FVec Ideal S31x64 .f32) (c1 c2 : FVec Ideal S64x64 .f32) (c3 : FVec Ideal S64x3 .f32)
    (r : Fin 2097152) (q : Fin 4) :
    val_main_v19 (F := Ideal) X s0 s1 s2 c0 c1 c2 c3 (ix2 r q) = outRow (row X r) s0 s1 s2 c0 c1 c2 c3 q := by
  unfold val_main_v19 outRow
  by_cases h : q.val < 3
  · rw [dif_pos h]
    refine (ConcatCols.left _ _ _ r q ⟨q.val, h⟩ rfl).trans ?_
    exact colour_at X s0 s1 s2 c0 c1 c2 c3 r _
  · rw [dif_neg h]
    have hq := q.isLt
    refine (ConcatCols.right _ _ _ r q ⟨0, by decide⟩ (by show 0 + 3 = q.val; omega)).trans ?_
    exact sigma_at X s0 s1 s2 r _

/-- The reference's result array is `RowNet.result` of its arguments. -/
theorem result_eq (X : FVec Ideal S2097152x48 .f32) (s0 : FVec Ideal S32x64 .f32) (s1 : FVec Ideal S64x64 .f32)
    (s2 : FVec Ideal S64x16 .f32) (c0 : FVec Ideal S31x64 .f32) (c1 c2 : FVec Ideal S64x64 .f32) (c3 : FVec Ideal S64x3 .f32) :
    val_main_v19 (F := Ideal) X s0 s1 s2 c0 c1 c2 c3 = result X s0 s1 s2 c0 c1 c2 c3 := by
  funext i
  obtain ⟨r, q, rfl⟩ : ∃ (r : Fin 2097152) (q : Fin 4), i = ix2 r q := ⟨i 0, i 1, eq_ix2 i⟩
  exact result_at X s0 s1 s2 c0 c1 c2 c3 r q

end Cert.RefRows

end
-- ==== Proof.lean ====
/-
  A neural-field network on 2097152 rows of 48 entries: a density network (32 → 64 → 64 → 16) on the first 32 entries, a
  colour network (31 → 64 → 64 → 64 → 3) on the last 16 entries beside 15 of the density network's outputs, all layers
  bias-free, a rectifier after every layer but each network's last; the result row is the three colours and the density.

  The kernel works through the rows in 256 blocks of 8192, with the seven weight arrays whole in every block, and narrows
  the operands of every product to sixteen bits first; the reference takes all rows at once. Over the extended reals the
  narrowings are the identity, both kinds of product are the plain sum of products over the contraction coordinate, and
  both rectifiers are the larger of an entry and zero, so row by row both compute the one function `RowNet.outRow` of the
  input's row (`KernelRows.block_at`, `RefRows.result_at`): the same sums, in the same order, with no law of arithmetic
  needed between them, and so no use of the inputs' finiteness. The kernel's blocks tile the rows (`KernelArray`), so
  both result arrays are `RowNet.result` of the arguments.

  The three frames: the two kernels' are the generated ones; the reference has no kernel and its frame is its generated
  run with the result dropped. The idealization rewrote nothing, so there is nothing to preserve.
-/
import proofs.«100441_j9689446220225_1_alg».proof.Defs
import proofs.«100441_j9689446220225_1_alg».proof.Proof.Gen.Kernel
import proofs.«100441_j9689446220225_1_alg».proof.Proof.Gen.Kernel.Skeleton
import proofs.«100441_j9689446220225_1_alg».proof.Proof.Gen.Kernel.Launch
import proofs.«100441_j9689446220225_1_alg».proof.Proof.Gen.Kernel.Points
import proofs.«100441_j9689446220225_1_alg».proof.Proof.Gen.Kernel.Frame
import proofs.«100441_j9689446220225_1_alg».proof.Proof.Gen.KernelIdeal
import proofs.«100441_j9689446220225_1_alg».proof.Proof.Gen.KernelIdeal.Skeleton
import proofs.«100441_j9689446220225_1_alg».proof.Proof.Gen.KernelIdeal.Launch
import proofs.«100441_j9689446220225_1_alg».proof.Proof.Gen.KernelIdeal.Points
import proofs.«100441_j9689446220225_1_alg».proof.Proof.Gen.KernelIdeal.Frame
import proofs.«100441_j9689446220225_1_alg».proof.Proof.Gen.ReferenceIdeal
import proofs.«100441_j9689446220225_1_alg».proof.Proof.Gen.Pre_finite_inputs
import proofs.«100441_j9689446220225_1_alg».proof.Proof.Gen.KernelIdeal.Value
import proofs.«100441_j9689446220225_1_alg».proof.Proof.Gen.ReferenceIdeal.Run
import proofs.«100441_j9689446220225_1_alg».proof.Proof.Gen.ReferenceIdeal.Read
import Idealize.ShloMosaic.Adequacy
import Idealize.ShloMosaic.Init
import proofs.«100441_j9689446220225_1_alg».proof.Proof.KernelArray
import proofs.«100441_j9689446220225_1_alg».proof.Proof.RefRows

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array ends at `RowNet.result` of its arguments and the
    reference's at its composed term of its own, which is `RowNet.result` of them too. -/
theorem algebraic : Cert.algebraic_KernelIdeal_ReferenceIdeal := by
  intro m ρ m' ρ' _ hagree
  refine ⟨fun c => Cert.KernelArray.G m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v19_eq, Cert.RefRows.result_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
